-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S16x1 .f32) (main_arg7 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg6
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S3200000 32) (main_arg2 : IVec S3200000 32) (main_arg3 : FVec F S3200000 .f32) (main_arg4 : FVec F S128x16 .f32) (main_arg5 : FVec F S16 .f32) (main_arg6 : FVec F S16x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_v13 main_v16
-- ==== Kernel.lean ====
abbrev S100000x128 : Shape := ⟨2, ![100000, 128]⟩
abbrev S3200000 : Shape := ⟨1, ![3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S10000x128 : Shape := ⟨2, ![10000, 128]⟩
abbrev S10000x16 : Shape := ⟨2, ![10000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 53
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x16, .f32⟩
  | .hbm, ⟨18, _⟩ => ⟨S3200000x1, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x1, .f32⟩
  | .hbm, ⟨36, _⟩ => ⟨S3200000x1, .f32⟩
  | .hbm, ⟨37, _⟩ => ⟨S3200000x1, .f32⟩
  | .hbm, ⟨38, _⟩ => ⟨S_, .f32⟩
  | .hbm, ⟨39, _⟩ => ⟨S100000x1, .f32⟩
  | .hbm, ⟨40, _⟩ => ⟨S3200000x1, .i32⟩
  | .hbm, ⟨41, _⟩ => ⟨S100000x1, .f32⟩
  | .hbm, ⟨42, _⟩ => ⟨S1x1, .f32⟩
  | .hbm, ⟨43, _⟩ => ⟨S100000x1, .f32⟩
  | .hbm, ⟨44, _⟩ => ⟨S100000x1, .f32⟩
  | .hbm, ⟨45, _⟩ => ⟨S100000x1, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S128x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x16, .f32⟩
  | .hbm, ⟨18, _⟩ => ⟨S3200000x1, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x1, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x1, .f32⟩
  | .hbm, ⟨41, _⟩ => ⟨S3200000x1, .f32⟩
  | .hbm, ⟨42, _⟩ => ⟨S3200000x1, .f32⟩
  | .hbm, ⟨43, _⟩ => ⟨S_, .f32⟩
  | .hbm, ⟨44, _⟩ => ⟨S100000x1, .f32⟩
  | .hbm, ⟨45, _⟩ => ⟨S3200000x1, .i32⟩
  | .hbm, ⟨46, _⟩ => ⟨S100000x1, .f32⟩
  | .hbm, ⟨47, _⟩ => ⟨S1x1, .f32⟩
  | .hbm, ⟨48, _⟩ => ⟨S100000x1, .f32⟩
  | .hbm, ⟨49, _⟩ => ⟨S100000x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x16_S100000x16_1_0_0_1_n_n_wf : DotDims.WF S100000x128 S128x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.LibRowBands.lean ====
/-
  The two dense stages of the network, read entry by entry over the extended reals.

  A matrix product is computed row by row: row `r` of `A · W` depends on row `r` of `A` only. So if a band of
  `B` rows is cut out of a tall matrix `A` (band row `p` is row `r` of `A`), row `p` of the band's product with `W`
  is row `r` of the whole product (`band_product`; the right factor may be given as a copy that agrees with `W`
  on the column read).

  The hidden activation `max (h + b, 0)` is computed entry by entry, the bias `b` laid along every row. A band of
  rows of `h`, biased by the one-row copy of `b` broadcast down the band and clamped at zero, is therefore the same
  band of rows of the whole activation (`hidden_band`).
-/
import Idealize.ShloMosaic.Lib.KernelVsHost
import Idealize.ShloMosaic.Lib.StackMember
import Idealize.ShloMosaic.Lib.ValueIdx
import Idealize.ShloMosaic.Lib.Pipeline.Value

noncomputable section

namespace Cert.Dense

open Idealize.ShloMosaic Idealize.ShloMosaic.ValueIdx
open scoped BigOperators

/-- Row `p` of a band's product is row `r` of the whole product when band row `p` is row `r` of the tall matrix:
    both entries are the sum over the contracted coordinate `k` of `A (r, k) * W (k, q)`. -/
theorem band_product {M B K N : Nat} {φ₁ φ₂ : FTy}
    (A : FVec Ideal ⟨2, ![M, K]⟩ φ₁) (Ab : FVec Ideal ⟨2, ![B, K]⟩ φ₁) (Wt Wb : FVec Ideal ⟨2, ![K, N]⟩ φ₂)
    (p : Fin B) (r : Fin M) (q : Fin N) (hrow : ∀ k : Fin K, Ab (ix2 p k) = A (ix2 r k))
    (hcol : ∀ k : Fin K, Wb (ix2 k q) = Wt (ix2 k q)) :
    Host.dotGeneral (DotDims.plain B K N) none Ab Wb (ix2 p q)
      = Host.dotGeneral (DotDims.plain M K N) none A Wt (ix2 r q) := by
  rw [StackMember.dotGeneral_plain_apply, StackMember.dotGeneral_plain_apply]
  exact Finset.sum_congr rfl fun k _ => by rw [hrow k, hcol k]

/-- A one-row matrix broadcast down a band, read at `(p, k)`, is the row at `(0, k)`. -/
theorem rowDown_apply {B n : Nat} (y : FVec Ideal ⟨2, ![1, n]⟩ .f32)
    (c3 : (⟨2, ![1, n]⟩ : Shape).Broadcasts ⟨2, ![B, n]⟩) (p : Fin B) (k : Fin n) :
    broadcastTo ⟨2, ![B, n]⟩ y c3 (ix2 p k) = y (ix2 (0 : Fin 1) k) :=
  broadcastTo_apply y c3 (ix2 p k) (ix2 (0 : Fin 1) k) (by
    intro a
    match a with
    | ⟨0, _⟩ => rfl
    | ⟨1, _⟩ =>
      show k.val = if n = 1 then 0 else k.val
      split
      · have := k.isLt; omega
      · rfl)

/-- A vector laid as a one-row matrix, read at `(0, k)`, is the vector at `k`. -/
theorem asRow_apply {n : Nat} (b : FVec Ideal ⟨1, ![n]⟩ .f32)
    (d1 : (⟨1, ![n]⟩ : Shape).BroadcastsInDim ⟨2, ![1, n]⟩ ![1]) (k : Fin n) :
    broadcastInDim ⟨2, ![1, n]⟩ ![1] d1 b (ix2 (0 : Fin 1) k) = b (ix1 k) :=
  broadcastInDim_apply ![1] d1 b (ix2 (0 : Fin 1) k) (ix1 k) (by
    intro a
    match a with
    | ⟨0, _⟩ =>
      show k.val = if n = 1 then 0 else k.val
      split
      · have := k.isLt; omega
      · rfl)

/-- The biased, clamped band at `(p, k)` is the biased, clamped whole at `(r, k)`: both are
    `max (h (r, k) + b k, 0)`, the zero the same word on both sides. -/
theorem hidden_band {B M n : Nat}
    (hpre : FVec Ideal ⟨2, ![M, n]⟩ .f32) (b : FVec Ideal ⟨1, ![n]⟩ .f32)
    (hblk : FVec Ideal ⟨2, ![B, n]⟩ .f32) (brow : FVec Ideal ⟨2, ![1, n]⟩ .f32)
    (c1 : (⟨2, ![B, n]⟩ : Shape).ShapeCasts ⟨2, ![B, n]⟩) (c2 : (⟨2, ![1, n]⟩ : Shape).ShapeCasts ⟨2, ![1, n]⟩)
    (c3 : (⟨2, ![1, n]⟩ : Shape).Broadcasts ⟨2, ![B, n]⟩)
    (d1 : (⟨1, ![n]⟩ : Shape).BroadcastsInDim ⟨2, ![1, n]⟩ ![1])
    (d2 : (⟨2, ![1, n]⟩ : Shape).BroadcastsInDim ⟨2, ![M, n]⟩ ![0, 1])
    (d3 : (⟨0, ![]⟩ : Shape).BroadcastsInDim ⟨2, ![M, n]⟩ ![])
    (p : Fin B) (r : Fin M) (k : Fin n)
    (hrow : hblk (ix2 p k) = hpre (ix2 r k)) (hb : brow (ix2 (0 : Fin 1) k) = b (ix1 k)) :
    maximumf (addf (shapeCast ⟨2, ![B, n]⟩ hblk c1) (broadcastTo ⟨2, ![B, n]⟩ (shapeCast ⟨2, ![1, n]⟩ brow c2) c3))
        (broadcast ⟨2, ![B, n]⟩ (Scalar.ofBits .f32 0x00000000#32)) (ix2 p k)
      = maximumf (addf hpre (broadcastInDim ⟨2, ![M, n]⟩ ![0, 1] d2 (broadcastInDim ⟨2, ![1, n]⟩ ![1] d1 b)))
        (broadcastInDim ⟨2, ![M, n]⟩ ![] d3 (constant ⟨0, ![]⟩ .f32 0x00000000#32)) (ix2 r k) := by
  rw [shapeCast_self, shapeCast_self, maximumf_apply, maximumf_apply, addf_apply, addf_apply, broadcast_apply,
    rowDown_apply, broadcastInDim_oneRow_apply, asRow_apply, hrow, hb,
    broadcastInDim_apply ![] d3 (constant ⟨0, ![]⟩ .f32 0x00000000#32) (ix2 r k) ix0 (fun a => a.elim0), constant_apply]
  rfl

end Cert.Dense

end
-- ==== Proof.Stage0.lean ====
/-
  The first dense stage, `z0 = x · W0`, as the kernel computes it: ten grid points, point `t` multiplying the
  band of rows `10000 t … 10000 t + 9999` of `x` by the whole of `W0` and writing the band of `z0` with the same rows.
  The narrowing of both operands to bf16 is the identity on extended reals, and the product accumulated into a
  zero splat is the product. Since row `r` of a product depends on row `r` of the left factor only, each band written
  is that band of the one whole product `x · W0`; the ten bands tile the 100000 rows, so the array ends at `x · W0`.
-/
import proofs.«133768_j53300544143387_1_alg».proof.Proof.Gen.KernelIdeal.Frame
import proofs.«133768_j53300544143387_1_alg».proof.Proof.LibRowBands

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The two argument arrays as the region finds them, and the blocks point `t` loads, at their literal types. -/
abbrev xArr (c : Dev nD) : FVec Ideal S100000x128 .f32 := V c main_arg0
abbrev wArr (c : Dev nD) : FVec Ideal S128x16 .f32 := V c main_arg4
abbrev xBlk (c : Dev nD) (t : Fin cfg0.N) : FVec Ideal S10000x128 .f32 := iblk0 V c 0 t
abbrev wBlk (c : Dev nD) (t : Fin cfg0.N) : FVec Ideal S128x16 .f32 := iblk0 V c 1 t

/-- The whole product `x · W0` of the arrays as the region finds them. -/
abbrev Z0 (c : Dev nD) : FVec Ideal S100000x16 .f32 :=
  Host.dotGeneral (F := Ideal) (φ₁ := .f32) (φ₂ := .f32) (DotDims.plain 100000 128 16) none (xArr V c) (wArr V c)

/-- The body's payload is the product of its two loaded blocks: the narrowings are the identity, and a product
    accumulated into zero is the product. -/
theorem pay_eq (x0 : FVec Ideal S10000x128 .f32) (x1 : FVec Ideal S128x16 .f32) :
    k0_pay1 (F := Ideal) x0 x1
      = Host.dotGeneral (F := Ideal) (φ₁ := .f32) (φ₂ := .f32) (DotDims.plain 10000 128 16) none x0 x1 :=
  matmul_zero_eq_dotGeneral (φ₁ := .f32) (φ₂ := .f32) (DotDims.plain 10000 128 16) none x0 x1

/-- The printed index maps over the grid: the band of `x` read and the band of `z0` written have the same block
    row, at most 9; every other block index is 0. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every one of the ten row bands is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is its band of rows of `x · W0`. -/
theorem flushed_eq (c : Dev nD) (t : Fin cfg0.N) :
    (dat0 V c).flushed 2 t = ((cfg0.win 2).blk t).view.read (Elt Ideal) (Z0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  rw [pay_eq]
  obtain ⟨e0, e1, e2, e3, e4, e5⟩ := idx_facts t
  funext j
  obtain ⟨p, q, rfl⟩ : ∃ (p : Fin 10000) (q : Fin 16), j = ix2 p q := ⟨j 0, j 1, eq_ix2 j⟩
  have hp : p.val < 10000 := p.isLt
  have hq : q.val < 16 := q.isLt
  have hr : win0_2.index t (0 : Fin 2) * 10000 + p.val < 100000 := by omega
  have hemb : ((cfg0.win 2).blk t).view.emb (ix2 p q) = ix2 (⟨win0_2.index t (0 : Fin 2) * 10000 + p.val, hr⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 16 + 1 * q.val = q.val; omega
  show Host.dotGeneral (F := Ideal) (φ₁ := .f32) (φ₂ := .f32) (DotDims.plain 10000 128 16) none (xBlk V c t) (wBlk V c t) (ix2 p q)
    = Z0 V c (((cfg0.win 2).blk t).view.emb (ix2 p q))
  rw [hemb]
  refine Cert.Dense.band_product (φ₁ := .f32) (φ₂ := .f32) (xArr V c) (xBlk V c t) (wArr V c) (wBlk V c t) p _ q ?_ ?_
  · intro k
    have hk : k.val < 128 := k.isLt
    show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · intro k
    have hk : k.val < 128 := k.isLt
    show V c main_arg4 (((cfg0.win 1).blk t).view.emb (ix2 k q)) = V c main_arg4 (ix2 k q)
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega

/-- An index of `z0` is in point `t`'s band iff each coordinate is in the band's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The ten bands tile the rows: row `r` is in the band of the point whose block row is `r / 10000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After the region the array of `z0` holds `x · W0`. -/
theorem final (c : Dev nD) : (dat0 V c).arrAt 2 cfg0.N = Z0 V c :=
  (dat0 V c).arrAt_eq_of_cover 2 (Z0 V c) (fun t _ => flushed_eq V c t) (cover)

end Cert.KernelIdeal.Stage0

end
-- ==== Proof.Stage1.lean ====
/-
  The second dense stage, `z1 = max (h_pre + b0, 0) · W1`, as the kernel computes it: ten grid points, point `t`
  taking the band of rows `10000 t … 10000 t + 9999` of `h_pre`, adding the bias (staged as a one-row matrix and
  broadcast down the band), clamping at zero, and multiplying by the whole of `W1`; it writes the band of `z1` with
  the same rows. The narrowings to bf16 are the identity on extended reals and the product accumulated into a zero
  splat is the product. The activation is entry by entry and a product row by row, so each band written is that
  band of the one whole `max (h_pre + b0, 0) · W1`, the bias laid along every row; the ten bands tile the rows.
-/
import proofs.«133768_j53300544143387_1_alg».proof.Proof.Gen.KernelIdeal.Frame
import proofs.«133768_j53300544143387_1_alg».proof.Proof.LibRowBands

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (b0 : FVec Ideal S16 .f32)
variable (d1 : S16.BroadcastsInDim S1x16 ![1]) (d2 : S1x16.BroadcastsInDim S100000x16 ![0, 1])
  (d3 : S_.BroadcastsInDim S100000x16 ![])

theorem hz : (![0, 0] : Fin 2 → Nat) = fun _ => 0 := funext fun a => by fin_cases a <;> rfl

/-- The arrays as the region finds them, and the blocks point `t` loads, at their literal types. -/
abbrev hArr (c : Dev nD) : FVec Ideal S100000x16 .f32 := V c main_v13
abbrev bArr (c : Dev nD) : FVec Ideal S1x16 .f32 := V c main_v14
abbrev wArr (c : Dev nD) : FVec Ideal S16x1 .f32 := V c main_arg6
abbrev hBlk (c : Dev nD) (t : Fin cfg1.N) : FVec Ideal S10000x16 .f32 := iblk1 V c 0 t
abbrev bBlk (c : Dev nD) (t : Fin cfg1.N) : FVec Ideal S1x16 .f32 := iblk1 V c 1 t
abbrev wBlk (c : Dev nD) (t : Fin cfg1.N) : FVec Ideal S16x1 .f32 := iblk1 V c 2 t

/-- The whole hidden activation `max (h_pre + b0, 0)`, the bias laid along every row. -/
abbrev hidden (c : Dev nD) : FVec Ideal S100000x16 .f32 :=
  maximumf (addf (hArr V c) (broadcastInDim S100000x16 ![0, 1] d2 (broadcastInDim S1x16 ![1] d1 b0)))
    (broadcastInDim S100000x16 ![] d3 (constant (F := Ideal) S_ .f32 0x00000000#32))

/-- The whole product `max (h_pre + b0, 0) · W1` of the arrays as the region finds them. -/
abbrev Z1 (c : Dev nD) : FVec Ideal S100000x1 .f32 :=
  Host.dotGeneral (F := Ideal) (φ₁ := .f32) (φ₂ := .f32) (DotDims.plain 100000 16 1) none (hidden V b0 d1 d2 d3 c) (wArr V c)

/-- The activation of one band, as the body computes it from its loaded blocks. -/
abbrev hiddenBand (x0 : FVec Ideal S10000x16 .f32) (x1 : FVec Ideal S1x16 .f32) : FVec Ideal S10000x16 .f32 :=
  maximumf (addf (shapeCast S10000x16 x0 Facts₀.shapeCasts_S10000x16_S10000x16)
      (broadcastTo S10000x16 (shapeCast S1x16 x1 Facts₀.shapeCasts_S1x16_S1x16) Facts₀.broadcasts_S1x16_S10000x16))
    (broadcast S10000x16 (Scalar.ofBits (F := Ideal) .f32 0x00000000#32))

/-- The body's payload is the product of the band's activation with its loaded `W1`: the narrowings are the
    identity, and a product accumulated into zero is the product. -/
theorem pay_eq (x0 : FVec Ideal S10000x16 .f32) (x1 : FVec Ideal S1x16 .f32) (x2 : FVec Ideal S16x1 .f32) :
    k1_pay1 (F := Ideal) x0 x1 x2
      = Host.dotGeneral (F := Ideal) (φ₁ := .f32) (φ₂ := .f32) (DotDims.plain 10000 16 1) none (hiddenBand x0 x1) x2 :=
  matmul_zero_eq_dotGeneral (φ₁ := .f32) (φ₂ := .f32) (DotDims.plain 10000 16 1) none (hiddenBand x0 x1) x2

/-- The printed index maps over the grid: the band of `h_pre` read and the band of `z1` written have the same
    block row, at most 9; every other block index is 0. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every one of the ten row bands is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is its band of rows of `max (h_pre + b0, 0) · W1`, when the staged one-row
    matrix holds the bias. -/
theorem flushed_eq (c : Dev nD) (hb : ∀ k : Fin 16, V c main_v14 (ix2 (0 : Fin 1) k) = b0 (ix1 k)) (t : Fin cfg1.N) :
    (dat1 V c).flushed 3 t = ((cfg1.win 3).blk t).view.read (Elt Ideal) (Z1 V b0 d1 d2 d3 c) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x1) hz]
  rw [pay_eq]
  obtain ⟨e0, e1, e2, e3, e4, e5, e6, e7⟩ := idx_facts t
  funext j
  obtain ⟨p, q, rfl⟩ : ∃ (p : Fin 10000) (q : Fin 1), j = ix2 p q := ⟨j 0, j 1, eq_ix2 j⟩
  have hp : p.val < 10000 := p.isLt
  have hq : q.val < 1 := q.isLt
  have hr : win1_3.index t (0 : Fin 2) * 10000 + p.val < 100000 := by omega
  have hemb : ((cfg1.win 3).blk t).view.emb (ix2 p q) = ix2 (⟨win1_3.index t (0 : Fin 2) * 10000 + p.val, hr⟩ : Fin 100000) q := by
    funext a; apply Fin.ext
    match a with
    | ⟨0, _⟩ => show win1_3.index t (0 : Fin 2) * 10000 + 1 * p.val = win1_3.index t (0 : Fin 2) * 10000 + p.val; omega
    | ⟨1, _⟩ => show win1_3.index t (1 : Fin 2) * 1 + 1 * q.val = q.val; omega
  show Host.dotGeneral (F := Ideal) (φ₁ := .f32) (φ₂ := .f32) (DotDims.plain 10000 16 1) none (hiddenBand (hBlk V c t) (bBlk V c t)) (wBlk V c t) (ix2 p q)
    = Z1 V b0 d1 d2 d3 c (((cfg1.win 3).blk t).view.emb (ix2 p q))
  rw [hemb]
  refine Cert.Dense.band_product (φ₁ := .f32) (φ₂ := .f32) (hidden V b0 d1 d2 d3 c) (hiddenBand (hBlk V c t) (bBlk V c t)) (wArr V c) (wBlk V c t) p _ q ?_ ?_
  · intro k
    have hk : k.val < 16 := k.isLt
    refine Cert.Dense.hidden_band (hArr V c) b0 (hBlk V c t) (bBlk V c t)
      Facts₀.shapeCasts_S10000x16_S10000x16 Facts₀.shapeCasts_S1x16_S1x16 Facts₀.broadcasts_S1x16_S10000x16 d1 d2 d3 p _ k ?_ ?_
    · show V c main_v13 (((cfg1.win 0).blk t).view.emb (ix2 p k)) = V c main_v13 (ix2 _ k)
      refine congrArg (V c main_v13) (funext fun a => Fin.ext ?_)
      match a with
      | ⟨0, _⟩ => show win1_0.index t (0 : Fin 2) * 10000 + 1 * p.val = win1_3.index t (0 : Fin 2) * 10000 + p.val; omega
      | ⟨1, _⟩ => show win1_0.index t (1 : Fin 2) * 16 + 1 * k.val = k.val; omega
    · refine Eq.trans ?_ (hb k)
      show V c main_v14 (((cfg1.win 1).blk t).view.emb (ix2 (0 : Fin 1) k)) = V c main_v14 (ix2 (0 : Fin 1) k)
      refine congrArg (V c main_v14) (funext fun a => Fin.ext ?_)
      match a with
      | ⟨0, _⟩ => show win1_1.index t (0 : Fin 2) * 1 + 1 * 0 = 0; omega
      | ⟨1, _⟩ => show win1_1.index t (1 : Fin 2) * 16 + 1 * k.val = k.val; omega
  · intro k
    have hk : k.val < 16 := k.isLt
    show V c main_arg6 (((cfg1.win 2).blk t).view.emb (ix2 k q)) = V c main_arg6 (ix2 k q)
    refine congrArg (V c main_arg6) (funext fun a => Fin.ext ?_)
    match a with
    | ⟨0, _⟩ => show win1_2.index t (0 : Fin 2) * 16 + 1 * k.val = k.val; omega
    | ⟨1, _⟩ => show win1_2.index t (1 : Fin 2) * 1 + 1 * q.val = q.val; omega

/-- An index of `z1` is in point `t`'s band iff each coordinate is in the band's range on its axis. -/
theorem mem_blk (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v15).slice (win1_3.rect t)).set ↔ _
  rw [View.set_slice_whole, Rect.mem_set_unit]
  exact Iff.rfl

/-- The ten bands tile the rows: row `r` is in the band of the point whose block row is `r / 10000`. -/
theorem cover (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 1 ≤ (i 1).val ∧ (i 1).val < win1_3.index t (1 : Fin 2) * 1 + 1; omega

/-- After the region the array of `z1` holds `max (h_pre + b0, 0) · W1`. -/
theorem final (c : Dev nD) (hb : ∀ k : Fin 16, V c main_v14 (ix2 (0 : Fin 1) k) = b0 (ix1 k)) :
    (dat1 V c).arrAt 3 cfg1.N = Z1 V b0 d1 d2 d3 c :=
  (dat1 V c).arrAt_eq_of_cover 3 (Z1 V b0 d1 d2 d3 c) (fun t _ => flushed_eq V b0 d1 d2 d3 c hb t) (cover)

end Cert.KernelIdeal.Stage1

end
-- ==== Proof.Chains.lean ====
/-
  The parts of the network both programs compute with the same host operations, each named as one function of
  the value it is applied to, so that the comparison of the two programs never opens them.

  * The sparse aggregation `A · z`: edge `e` carries row `src e` of `z` (a negative index wrapped by the node count)
    scaled by the edge weight `w e`, and the carried rows are summed into row `dst e` of a zero matrix — at sixteen
    feature columns (`spmm16`) and at one (`spmm1`).
  * The output activation: the bias added to every row, then the logistic function `1 / (1 + exp (−a))`
    (`logistic1`).
-/
import proofs.«133768_j53300544143387_1_alg».proof.KernelIdeal

noncomputable section

namespace Cert.KernelIdeal.Sparse

open Cert.KernelIdeal Idealize.ShloMosaic

variable {F : FTy → Type} [FloatOps F] [Facts]
open Facts₀ Facts

/-- The edges' source nodes as a column of indices, a negative index wrapped by the node count 100000. -/
def srcCol (src : (⟨S3200000, .i32⟩ : BufTy).Contents (Elt F)) : (⟨S3200000x1, .i32⟩ : BufTy).Contents (Elt F) :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- `A · z` at sixteen feature columns: row `src e` of `z` times the weight of edge `e`, summed into row `dst e`. -/
def spmm16 (z : (⟨S100000x16, .f32⟩ : BufTy).Contents (Elt F)) (src dst : (⟨S3200000, .i32⟩ : BufTy).Contents (Elt F))
    (ew : (⟨S3200000, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf (Host.gather gather_S100000x16_S3200000x1_S3200000x16_1_0_n_n_0_1_116 z (srcCol src))
      (broadcastInDim S3200000x16 ![0, 1] bcast_S3200000x1_S3200000x16_0_1
        (broadcastInDim S3200000x1 ![0] bcast_S3200000_S3200000x1_0 ew)))

/-- `A · z` at one feature column. -/
def spmm1 (z : (⟨S100000x1, .f32⟩ : BufTy).Contents (Elt F)) (src dst : (⟨S3200000, .i32⟩ : BufTy).Contents (Elt F))
    (ew : (⟨S3200000, .f32⟩ : BufTy).Contents (Elt F)) : (⟨S100000x1, .f32⟩ : BufTy).Contents (Elt F) :=
  Host.scatterAdd scatter_S100000x1_S3200000x1_S3200000x1_1_0_0_1
    (broadcastInDim S100000x1 ![] bcast_S_S100000x1 (constant S_ .f32 0x00000000#32))
    (broadcastInDim S3200000x1 ![0] bcast_S3200000_S3200000x1_0 dst)
    (mulf (Host.gather gather_S100000x1_S3200000x1_S3200000x1_1_0_n_n_0_1_11 z (srcCol src))
      (broadcastInDim S3200000x1 ![0] bcast_S3200000_S3200000x1_0 ew))

/-- The output activation: `1 / (1 + exp (−(a + b1)))`, the one bias added to every row. -/
def logistic1 (a : (⟨S100000x1, .f32⟩ : BufTy).Contents (Elt F)) (b1 : (⟨S1, .f32⟩ : BufTy).Contents (Elt F)) :
    (⟨S100000x1, .f32⟩ : BufTy).Contents (Elt F) :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf a
        (broadcastInDim S100000x1 ![0, 1] bcast_S1x1_S100000x1_0_1 (broadcastInDim S1x1 ![1] bcast_S1_S1x1_1 b1))))))

end Cert.KernelIdeal.Sparse

end
-- ==== Proof.KernelValue.lean ====
/-
  The kernel program's result as one function of its eight arguments, over the extended reals.

  The run passes four boundaries. Region 0 leaves `z0 = x · W0` in its output array and every argument as launched.
  The first host stretch gathers, weights and sums `z0` along the edges into `h_pre = A · z0` and lays the bias
  `b0` out as a one-row matrix. Region 1 leaves `z1 = max (h_pre + b0, 0) · W1`. The last host stretch aggregates
  `z1` along the same edges, adds `b1` and applies the logistic function. Read back through the four boundaries
  the result buffer holds `logistic (A · (max (A · (x · W0) + b0, 0) · W1) + b1)`.
-/
import proofs.«133768_j53300544143387_1_alg».proof.Proof.Gen.KernelIdeal.Frame
import proofs.«133768_j53300544143387_1_alg».proof.Proof.Stage0
import proofs.«133768_j53300544143387_1_alg».proof.Proof.Stage1
import proofs.«133768_j53300544143387_1_alg».proof.Proof.Chains
import Idealize.ShloMosaic.Lib.StableHlo.Run

set_option maxRecDepth 16384

noncomputable section

namespace Cert.KernelIdeal.Result

open Cert.KernelIdeal Cert.KernelIdeal.Gen Cert.KernelIdeal.Sparse
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)
variable (d1 : S16.BroadcastsInDim S1x16 ![1]) (d2 : S1x16.BroadcastsInDim S100000x16 ![0, 1])
  (d3 : S_.BroadcastsInDim S100000x16 ![])

/-! ## The arguments as launched, at their literal types -/

abbrev x (c : Dev nD) : FVec Ideal S100000x128 .f32 := m ((c : Thread nD τ).loc main_arg0)
abbrev src (c : Dev nD) : (⟨S3200000, .i32⟩ : BufTy).Contents (Elt Ideal) := m ((c : Thread nD τ).loc main_arg1)
abbrev dst (c : Dev nD) : (⟨S3200000, .i32⟩ : BufTy).Contents (Elt Ideal) := m ((c : Thread nD τ).loc main_arg2)
abbrev ew (c : Dev nD) : (⟨S3200000, .f32⟩ : BufTy).Contents (Elt Ideal) := m ((c : Thread nD τ).loc main_arg3)
abbrev w0 (c : Dev nD) : FVec Ideal S128x16 .f32 := m ((c : Thread nD τ).loc main_arg4)
abbrev b0 (c : Dev nD) : FVec Ideal S16 .f32 := m ((c : Thread nD τ).loc main_arg5)
abbrev w1 (c : Dev nD) : FVec Ideal S16x1 .f32 := m ((c : Thread nD τ).loc main_arg6)
abbrev b1 (c : Dev nD) : (⟨S1, .f32⟩ : BufTy).Contents (Elt Ideal) := m ((c : Thread nD τ).loc main_arg7)

/-! ## The intermediate values -/

/-- `z0 = x · W0`. -/
abbrev z0 (c : Dev nD) : FVec Ideal S100000x16 .f32 :=
  Host.dotGeneral (F := Ideal) (φ₁ := .f32) (φ₂ := .f32) (DotDims.plain 100000 128 16) none (x m c) (w0 m c)

/-- `h = max (A · z0 + b0, 0)`, the bias laid along every row. -/
abbrev h (c : Dev nD) : FVec Ideal S100000x16 .f32 :=
  maximumf (addf (spmm16 (F := Ideal) (z0 m c) (src m c) (dst m c) (ew m c))
      (broadcastInDim S100000x16 ![0, 1] d2 (broadcastInDim S1x16 ![1] d1 (b0 m c))))
    (broadcastInDim S100000x16 ![] d3 (constant (F := Ideal) S_ .f32 0x00000000#32))

/-- `z1 = h · W1`. -/
abbrev z1 (c : Dev nD) : FVec Ideal S100000x1 .f32 :=
  Host.dotGeneral (F := Ideal) (φ₁ := .f32) (φ₂ := .f32) (DotDims.plain 100000 16 1) none (h m d1 d2 d3 c) (w1 m c)

/-- The network's output, `logistic (A · z1 + b1)`. -/
abbrev out (c : Dev nD) : (⟨S100000x1, .f32⟩ : BufTy).Contents (Elt Ideal) :=
  logistic1 (F := Ideal) (spmm1 (F := Ideal) (z1 m d1 d2 d3 c) (src m c) (dst m c) (ew m c)) (b1 m c)

/-! ## After region 0 -/

theorem W1_arg1 (c : Dev nD) : W1 m ρ c (Proc.devRef .tc main_arg1) = src m c := W1_of_ne m ρ c main_arg1 (by decide)
theorem W1_arg2 (c : Dev nD) : W1 m ρ c (Proc.devRef .tc main_arg2) = dst m c := W1_of_ne m ρ c main_arg2 (by decide)
theorem W1_arg3 (c : Dev nD) : W1 m ρ c (Proc.devRef .tc main_arg3) = ew m c := W1_of_ne m ρ c main_arg3 (by decide)
theorem W1_arg5 (c : Dev nD) : W1 m ρ c (Proc.devRef .tc main_arg5) = b0 m c := W1_of_ne m ρ c main_arg5 (by decide)
theorem W1_arg6 (c : Dev nD) : W1 m ρ c (Proc.devRef .tc main_arg6) = w1 m c := W1_of_ne m ρ c main_arg6 (by decide)
theorem W1_arg7 (c : Dev nD) : W1 m ρ c (Proc.devRef .tc main_arg7) = b1 m c := W1_of_ne m ρ c main_arg7 (by decide)

/-- Region 0's output array holds `x · W0`. -/
theorem W1_v0 (c : Dev nD) : W1 m ρ c (Proc.devRef .tc main_v0) = z0 m c :=
  (W1_arr m ρ c 2).trans (Stage0.final (V0 m ρ) c)

/-! ## After the first host stretch -/

/-- The aggregated features `A · z0`. -/
theorem W2_v13 (c : Dev nD) :
    W2 m ρ c (Proc.devRef .tc main_v13) = spmm16 (F := Ideal) (z0 m c) (src m c) (dst m c) (ew m c) := by
  show StableHlo.after hostOps1 (W1 m ρ c) (Proc.devRef .tc main_v13) = _
  after_results
  rw [W1_arg1, W1_arg2, W1_arg3, W1_v0]
  rfl

/-- The bias as a one-row matrix: its entry `(0, k)` is `b0 k`. -/
theorem W2_v14 (c : Dev nD) (k : Fin 16) :
    V2 m ρ c main_v14 (ix2 (0 : Fin 1) k) = b0 m c (ix1 k) := by
  have e : W2 m ρ c (Proc.devRef .tc main_v14) = shapeCast S1x16 (b0 m c) Facts₀.shapeCasts_S16_S1x16 := by
    show StableHlo.after hostOps1 (W1 m ρ c) (Proc.devRef .tc main_v14) = _
    after_results
    rw [W1_arg5]
    rfl
  show W2 m ρ c (Proc.devRef .tc main_v14) (ix2 (0 : Fin 1) k) = _
  rw [e]
  exact shapeCast_apply (b0 m c) Facts₀.shapeCasts_S16_S1x16 (ix2 (0 : Fin 1) k) (ix1 k) (by
    rw [Shape.rowMajor_val_two, Shape.rowMajor_val_one]; show k.val = 0 * 16 + k.val; omega)

theorem W2_arg1 (c : Dev nD) : W2 m ρ c (Proc.devRef .tc main_arg1) = src m c := by
  show StableHlo.after hostOps1 (W1 m ρ c) (Proc.devRef .tc main_arg1) = _
  after_results
  exact W1_arg1 m ρ c
theorem W2_arg2 (c : Dev nD) : W2 m ρ c (Proc.devRef .tc main_arg2) = dst m c := by
  show StableHlo.after hostOps1 (W1 m ρ c) (Proc.devRef .tc main_arg2) = _
  after_results
  exact W1_arg2 m ρ c
theorem W2_arg3 (c : Dev nD) : W2 m ρ c (Proc.devRef .tc main_arg3) = ew m c := by
  show StableHlo.after hostOps1 (W1 m ρ c) (Proc.devRef .tc main_arg3) = _
  after_results
  exact W1_arg3 m ρ c
theorem W2_arg6 (c : Dev nD) : W2 m ρ c (Proc.devRef .tc main_arg6) = w1 m c := by
  show StableHlo.after hostOps1 (W1 m ρ c) (Proc.devRef .tc main_arg6) = _
  after_results
  exact W1_arg6 m ρ c
theorem W2_arg7 (c : Dev nD) : W2 m ρ c (Proc.devRef .tc main_arg7) = b1 m c := by
  show StableHlo.after hostOps1 (W1 m ρ c) (Proc.devRef .tc main_arg7) = _
  after_results
  exact W1_arg7 m ρ c

/-! ## After region 1 -/

theorem W3_arg1 (c : Dev nD) : W3 m ρ c (Proc.devRef .tc main_arg1) = src m c :=
  (W3_of_ne m ρ c main_arg1 (by decide)).trans (W2_arg1 m ρ c)
theorem W3_arg2 (c : Dev nD) : W3 m ρ c (Proc.devRef .tc main_arg2) = dst m c :=
  (W3_of_ne m ρ c main_arg2 (by decide)).trans (W2_arg2 m ρ c)
theorem W3_arg3 (c : Dev nD) : W3 m ρ c (Proc.devRef .tc main_arg3) = ew m c :=
  (W3_of_ne m ρ c main_arg3 (by decide)).trans (W2_arg3 m ρ c)
theorem W3_arg7 (c : Dev nD) : W3 m ρ c (Proc.devRef .tc main_arg7) = b1 m c :=
  (W3_of_ne m ρ c main_arg7 (by decide)).trans (W2_arg7 m ρ c)

/-- Region 1's output array holds `max (A · z0 + b0, 0) · W1`. -/
theorem W3_v15 (c : Dev nD) : W3 m ρ c (Proc.devRef .tc main_v15) = z1 m d1 d2 d3 c := by
  refine ((W3_arr m ρ c 3).trans (Stage1.final (V2 m ρ) (b0 m c) d1 d2 d3 c (W2_v14 m ρ c))).trans ?_
  show Host.dotGeneral (F := Ideal) (φ₁ := .f32) (φ₂ := .f32) (DotDims.plain 100000 16 1) none
      (maximumf (addf (W2 m ρ c (Proc.devRef .tc main_v13))
          (broadcastInDim S100000x16 ![0, 1] d2 (broadcastInDim S1x16 ![1] d1 (b0 m c))))
        (broadcastInDim S100000x16 ![] d3 (constant (F := Ideal) S_ .f32 0x00000000#32)))
      (W2 m ρ c (Proc.devRef .tc main_arg6)) = _
  rw [W2_v13, W2_arg6]

/-! ## After the last host stretch -/

set_option maxHeartbeats 2000000 in
/-- The result buffer holds the network's output. -/
theorem result (c : Dev nD) : W4 m ρ c (Proc.devRef .tc main_v36) = out m d1 d2 d3 c := by
  show StableHlo.after hostOps2 (W3 m ρ c) (Proc.devRef .tc main_v36) = _
  after_results_simp
  rw [W3_arg1, W3_arg2, W3_arg3, W3_arg7, W3_v15 m ρ d1 d2 d3 c]
  rfl

end Cert.KernelIdeal.Result

end
-- ==== Proof.lean ====
/-
  A two-layer graph convolution, `logistic (A · (max (A · (x · W0) + b0, 0) · W1) + b1)`, where `A · z` gathers row
  `src e` of `z` for every edge `e`, scales it by the edge's weight and sums the scaled rows into row `dst e`.

  The kernel program computes the two dense products in two pipelined kernels, each over ten bands of 10000 rows
  (the second fused with the bias and the clamp at zero), and leaves the sparse aggregations and the logistic
  function to the same host operations the reference uses. Over the extended reals the narrowings to bf16 are the
  identity, a product accumulated into a zero splat is the product, and a product and the activation are computed
  row by row, so each band a kernel writes is that band of the reference's whole-array value and the bands tile
  the rows. The shared host operations are applied to equal values; nothing about them is used but that.

  No law of arithmetic beyond `0 + s = s` enters, so the precondition (finite inputs) is not opened. The kernel's
  idealization rewrote no operation, so `preserves` holds trivially. Each frame is the generated one; the
  reference's is its generated run with the result dropped.
-/
import proofs.«133768_j53300544143387_1_alg».proof.Defs
import proofs.«133768_j53300544143387_1_alg».proof.Proof.Gen.Kernel
import proofs.«133768_j53300544143387_1_alg».proof.Proof.Gen.Kernel.Skeleton
import proofs.«133768_j53300544143387_1_alg».proof.Proof.Gen.Kernel.Launch
import proofs.«133768_j53300544143387_1_alg».proof.Proof.Gen.Kernel.Points
import proofs.«133768_j53300544143387_1_alg».proof.Proof.Gen.Kernel.Frame
import proofs.«133768_j53300544143387_1_alg».proof.Proof.Gen.KernelIdeal
import proofs.«133768_j53300544143387_1_alg».proof.Proof.Gen.KernelIdeal.Skeleton
import proofs.«133768_j53300544143387_1_alg».proof.Proof.Gen.KernelIdeal.Launch
import proofs.«133768_j53300544143387_1_alg».proof.Proof.Gen.KernelIdeal.Points
import proofs.«133768_j53300544143387_1_alg».proof.Proof.Gen.KernelIdeal.Frame
import proofs.«133768_j53300544143387_1_alg».proof.Proof.Gen.ReferenceIdeal
import proofs.«133768_j53300544143387_1_alg».proof.Proof.Gen.ReferenceIdeal.Run
import proofs.«133768_j53300544143387_1_alg».proof.Proof.Gen.Pre_finite_inputs
import proofs.«133768_j53300544143387_1_alg».proof.Proof.KernelRun
import proofs.«133768_j53300544143387_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `logistic (A · (max (A · (x · W0) + b0, 0) · W1) + b1)` of arguments that agree. -/
theorem algebraic : Cert.algebraic_KernelIdeal_ReferenceIdeal := by
  intro m ρ m' ρ' _ hagree
  refine ⟨fun c => Cert.KernelIdeal.Gen.W4 m ρ c (Proc.devRef .tc Cert.KernelIdeal.main_v36),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  show _ = Cert.KernelIdeal.Gen.W4 m ρ c (Proc.devRef .tc Cert.KernelIdeal.main_v36)
  rw [Cert.KernelIdeal.Result.result m ρ
    (show Cert.KernelIdeal.S16.BroadcastsInDim Cert.KernelIdeal.S1x16 ![1] from Cert.ReferenceIdeal.Facts₀.bcast_S16_S1x16_1)
    (show Cert.KernelIdeal.S1x16.BroadcastsInDim Cert.KernelIdeal.S100000x16 ![0, 1] from Cert.ReferenceIdeal.Facts₀.bcast_S1x16_S100000x16_0_1)
    (show Cert.KernelIdeal.S_.BroadcastsInDim Cert.KernelIdeal.S100000x16 ![] from Cert.ReferenceIdeal.Facts₀.bcast_S_S100000x16) c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
